-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1250000 : Shape := ⟨2, ![2, 1250000]⟩
abbrev S1000000x64 : Shape := ⟨2, ![1000000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S2x1250000 32) (main_arg1 : FVec F S1000000x64 .f32) (main_arg2 : FVec F S128x64 .f32) (main_arg3 : FVec F S128 .f32) (main_arg4 : FVec F S64x128 .f32) (main_arg5 : FVec F S64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S2x1250000 : Shape := ⟨2, ![2, 1250000]⟩
abbrev S1000000x64 : Shape := ⟨2, ![1000000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x128 : Shape := ⟨2, ![1, 128]⟩
abbrev S1x64 : Shape := ⟨2, ![1, 64]⟩
abbrev S10000x64 : Shape := ⟨2, ![10000, 64]⟩
abbrev S10000x128 : Shape := ⟨2, ![10000, 128]⟩

abbrev nBuf : Space → Nat
  | .hbm => 35
  | .vmem => 10
  | .smem => 0
  | _ => 0

abbrev bufTy : (tb : Table) → Fin (tcTables nBuf tb) → BufTy
  | .hbm, ⟨0, _⟩ => ⟨S2x1250000, .i32⟩
  | .hbm, ⟨1, _⟩ => ⟨S1000000x64, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S_, .f32⟩
  | .hbm, ⟨20, _⟩ => ⟨S1000000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1000000x64, .f32⟩
  | .hbm, ⟨30, _⟩ => ⟨S64x128, .f32⟩
  | .hbm, ⟨31, _⟩ => ⟨S128x64, .f32⟩
  | .hbm, ⟨32, _⟩ => ⟨S1x128, .f32⟩
  | .hbm, ⟨33, _⟩ => ⟨S1x64, .f32⟩
  | .hbm, ⟨34, _⟩ => ⟨S1000000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S2x1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1000000x64 : S_.BroadcastsInDim S1000000x64 (![] : Fin 0 → Fin S1000000x64.rank)
  transposes_S128x64_S64x128_1_0 : S128x64.Transposes [1, 0] S64x128
  transposes_S64x128_S128x64_1_0 : S64x128.Transposes [1, 0] S128x64
  shapeCasts_S128_S1x128 : S128.ShapeCasts S1x128
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S1000000x64_S1250000x1_S1250000x64_1_0_n_n_0_1_164_wf : GatherDims.WF S1000000x64 S1250000x1 S1250000x64 [1] [0] [] [0] [] 1 ![1, 64]
  scatter_S1000000x64_S1250000x1_S1250000x64_1_0_0_1_wf : ScatterDims.WF S1000000x64 S1250000x1 S1250000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1000000x64.size a
  hwx0_1 : ∀ i : grid0.Coords, EltTy.bits .f32 = 32 ∨ (Rect.block (s := S1000000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S1000000x64.size a
  hwx0_6 : ∀ i : grid0.Coords, EltTy.bits .f32 = 32 ∨ (Rect.block (s := S1000000x64) S10000x64.size (cc0_transform_6 i) (hinb0_6 i)).WholeWords (EltTy.packing .f32)

variable [Facts₀]

def gather_S1000000x64_S1250000x1_S1250000x64_1_0_n_n_0_1_164 : GatherDims S1000000x64 S1250000x1 S1250000x64 where
  offsetDims := [1]
  collapsedSliceDims := [0]
  operandBatchingDims := []
  startIndicesBatchingDims := []
  startIndexMap := [0]
  indexVectorDim := 1
  sliceSizes := ![1, 64]
  wf := gather_S1000000x64_S1250000x1_S1250000x64_1_0_n_n_0_1_164_wf
def scatter_S1000000x64_S1250000x1_S1250000x64_1_0_0_1 : ScatterDims S1000000x64 S1250000x1 S1250000x64 where
  updateWindowDims := [1]
  insertedWindowDims := [0]
  scatterDimsToOperandDims := [0]
  indexVectorDim := 1
  wf := scatter_S1000000x64_S1250000x1_S1250000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v18) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x1250000 : Shape := ⟨2, ![2, 1250000]⟩
abbrev S1000000x64 : Shape := ⟨2, ![1000000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1000000x128 : Shape := ⟨2, ![1000000, 128]⟩
abbrev S1x128 : Shape := ⟨2, ![1, 128]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S2x1250000, .i32⟩
  | .hbm, ⟨1, _⟩ => ⟨S1000000x64, .f32⟩
  | .hbm, ⟨2, _⟩ => ⟨S128x64, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S1000000x64, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1000000x64, .f32⟩
  | .hbm, ⟨30, _⟩ => ⟨S64x128, .f32⟩
  | .hbm, ⟨31, _⟩ => ⟨S1000000x128, .f32⟩
  | .hbm, ⟨32, _⟩ => ⟨S1x128, .f32⟩
  | .hbm, ⟨33, _⟩ => ⟨S1000000x128, .f32⟩
  | .hbm, ⟨34, _⟩ => ⟨S1000000x128, .f32⟩
  | .hbm, ⟨35, _⟩ => ⟨S_, .f32⟩
  | .hbm, ⟨36, _⟩ => ⟨S1000000x128, .f32⟩
  | .hbm, ⟨37, _⟩ => ⟨S1000000x128, .f32⟩
  | .hbm, ⟨38, _⟩ => ⟨S128x64, .f32⟩
  | .hbm, ⟨39, _⟩ => ⟨S1000000x64, .f32⟩
  | .hbm, ⟨40, _⟩ => ⟨S1x64, .f32⟩
  | .hbm, ⟨41, _⟩ => ⟨S1000000x64, .f32⟩
  | .hbm, ⟨42, _⟩ => ⟨S1000000x64, .f32⟩
  | .hbm, ⟨43, _⟩ => ⟨S_, .f32⟩
  | .hbm, ⟨44, _⟩ => ⟨S1000000x64, .f32⟩
  | .hbm, ⟨45, _⟩ => ⟨S1000000x64, .f32⟩
  | .hbm, ⟨46, _⟩ => ⟨S1000000x64, .f32⟩
  | _, _ => ⟨S2x1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1000000x64 : S_.BroadcastsInDim S1000000x64 (![] : Fin 0 → Fin S1000000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S128x64_S64x128_1_0 : S128x64.Transposes [1, 0] S64x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  gather_S1000000x64_S1250000x1_S1250000x64_1_0_n_n_0_1_164_wf : GatherDims.WF S1000000x64 S1250000x1 S1250000x64 [1] [0] [] [0] [] 1 ![1, 64]
  scatter_S1000000x64_S1250000x1_S1250000x64_1_0_0_1_wf : ScatterDims.WF S1000000x64 S1250000x1 S1250000x64 [1] [0] [0] 1
  dot_S1000000x64_S64x128_S1000000x128_1_0_0_1_n_n_wf : DotDims.WF S1000000x64 S64x128 S1000000x128 [1] [0] [0] [1] [] []
  dot_S1000000x128_S128x64_S1000000x64_1_0_0_1_n_n_wf : DotDims.WF S1000000x128 S128x64 S1000000x64 [1] [0] [0] [1] [] []

variable [Facts₀]

def gather_S1000000x64_S1250000x1_S1250000x64_1_0_n_n_0_1_164 : GatherDims S1000000x64 S1250000x1 S1250000x64 where
  offsetDims := [1]
  collapsedSliceDims := [0]
  operandBatchingDims := []
  startIndicesBatchingDims := []
  startIndexMap := [0]
  indexVectorDim := 1
  sliceSizes := ![1, 64]
  wf := gather_S1000000x64_S1250000x1_S1250000x64_1_0_n_n_0_1_164_wf
def scatter_S1000000x64_S1250000x1_S1250000x64_1_0_0_1 : ScatterDims S1000000x64 S1250000x1 S1250000x64 where
  updateWindowDims := [1]
  insertedWindowDims := [0]
  scatterDimsToOperandDims := [0]
  indexVectorDim := 1
  wf := scatter_S1000000x64_S1250000x1_S1250000x64_1_0_0_1_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.Spec.lean ====
/-
  The function both programs compute, stated once over plain index types.

  A node's output row is its embedding row plus a two-layer perceptron of its aggregated message row:
  with `x` the message row (64 entries), `a k h` the first layer's weight from input `k` to hidden unit `h`,
  `p h` the first bias, `b h` the second layer's weight from hidden unit `h` to the output column in question and
  `q` that column's bias, the output entry is

      e + max (Σ_h max (Σ_k x k · a k h + p h) 0 · b h + q) 0

  on the extended reals. The zero of each `max` is kept as the f32 word both programs print for it, so the two sides
  meet on it without its value ever being needed.

  `G` lays this out over the whole [1000000, 64] result from the six arrays both programs are given (the message
  array standing for the scatter-add of gathered embedding rows, which both programs compute with the same host
  operations): entry (n, d) reads row n of the messages, w1 transposed (hidden unit h, input k ↦ w1[h, k]),
  b1[h], row d of w2 (w2[d, h]) and b2[d].

  `G'` is the same function over the operand arrays a tiled kernel is handed instead: the first layer's matrix already
  transposed to [64, 128], the second's to [128, 64], and each bias as a one-row matrix.
-/
import Idealize.ShloMosaic.PureOps.Ideal
import Idealize.ShloMosaic.Lib.ValueIdx

noncomputable section

namespace Cert.GraphMlp

open Idealize.ShloMosaic Idealize.ShloMosaic.ValueIdx

/-- One output entry from one node's message row `x`, its embedding entry `e`, the first layer (`a`, `p`), and the
    second layer's column for this output (`b`, `q`). -/
def entry (x : Fin 64 → EReal) (e : EReal) (a : Fin 64 → Fin 128 → EReal) (p : Fin 128 → EReal)
    (b : Fin 128 → EReal) (q : EReal) : EReal :=
  e + max ((∑ h : Fin 128, max ((∑ k : Fin 64, x k * a k h) + p h) (Ideal.ofBits .f32 0x00000000#32) * b h) + q)
    (Ideal.ofBits .f32 0x00000000#32)

/-- The whole result over the arrays as given: `w1 : [128, 64]`, `b1 : [128]`, `w2 : [64, 128]`, `b2 : [64]`. -/
def G (msg emb : (⟨2, ![1000000, 64]⟩ : Shape).Idx → EReal) (w1 : (⟨2, ![128, 64]⟩ : Shape).Idx → EReal)
    (b1 : (⟨1, ![128]⟩ : Shape).Idx → EReal) (w2 : (⟨2, ![64, 128]⟩ : Shape).Idx → EReal)
    (b2 : (⟨1, ![64]⟩ : Shape).Idx → EReal) : (⟨2, ![1000000, 64]⟩ : Shape).Idx → EReal := fun i =>
  entry (fun k => msg (ix2 (i 0) k)) (emb i) (fun k h => w1 (ix2 h k)) (fun h => b1 (ix1 h))
    (fun h => w2 (ix2 (i 1) h)) (b2 (ix1 (i 1)))

/-- The whole result over transposed weights and one-row biases: `a : [64, 128]`, `p : [1, 128]`, `b : [128, 64]`,
    `q : [1, 64]`. -/
def G' (msg emb : (⟨2, ![1000000, 64]⟩ : Shape).Idx → EReal) (a : (⟨2, ![64, 128]⟩ : Shape).Idx → EReal)
    (p : (⟨2, ![1, 128]⟩ : Shape).Idx → EReal) (b : (⟨2, ![128, 64]⟩ : Shape).Idx → EReal)
    (q : (⟨2, ![1, 64]⟩ : Shape).Idx → EReal) : (⟨2, ![1000000, 64]⟩ : Shape).Idx → EReal := fun i =>
  entry (fun k => msg (ix2 (i 0) k)) (emb i) (fun k h => a (ix2 k h)) (fun h => p (ix2 (0 : Fin 1) h))
    (fun h => b (ix2 h (i 1))) (q (ix2 (0 : Fin 1) (i 1)))

end Cert.GraphMlp

end
-- ==== Proof.Payload.lean ====
/-
  The kernel body's one stored value, read at an index.

  The body loads a block of message rows `v0`, the transposed first-layer matrix `v3` ([64, 128]), the first bias as
  a one-row matrix `v7`, the transposed second-layer matrix `v14` ([128, 64]), the second bias as a one-row matrix
  `v18` and the matching block of embedding rows `v24`, and stores

      v24 + max (max (v0 · v3 + v7) 0 · v14 + v18) 0

  where `·` is the matrix unit's product into a zero accumulator and the casts to bf16 around it are the identity on
  the extended reals. Each product contracts the left operand's axis 1 with the right operand's axis 0, so entry
  (r, h) of `l · rr` is `Σ_k l[r, k] · rr[k, h]`; the two lemmas `mm1_apply` and `mm2_apply` say so for the two
  products' dimension records, and `pay_apply` reads the whole stored value at (r, d) as the specification's
  `entry` of row r of the loaded blocks.
-/
import proofs.«126179_j87832081203928_1_alg».proof.Proof.Gen.KernelIdeal.Skeleton
import proofs.«126179_j87832081203928_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The first product: [10000, 64] · [64, 128] -/

theorem lhs_mm1_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_mm1_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_mm1_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_mm1_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Entry (r, h) of the first product into a zero accumulator: row r of the left operand against column h of the right. -/
theorem mm1_apply {φ₁ φ₂ : FTy} (l : FVec Ideal S10000x64 φ₁) (rr : FVec Ideal S64x128 φ₂) (r : Fin 10000) (h : Fin 128) :
    matmul dot_S10000x64_S64x128_S10000x128_1_0_0_1_n_n none l rr (constant S10000x128 .f32 0x00000000#32) (ix2 r h)
      = ∑ k : Fin 64, l (ix2 r k) * rr (ix2 k h) := by
  show FloatOps.matmul dot_S10000x64_S64x128_S10000x128_1_0_0_1_n_n none l rr (constant S10000x128 .f32 0x00000000#32) (ix2 r h) = _
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 r h) ((ValueIdx.contrEquiv1 dot_S10000x64_S64x128_S10000x128_1_0_0_1_n_n 64 rfl rfl).symm k) = ix2 r k := funext fun a => Fin.ext (by
    match a with
    | ⟨0, _⟩ => exact lhs_mm1_0 _ _
    | ⟨1, _⟩ => exact (lhs_mm1_1 _ _).trans hk)
  have er : dot_S10000x64_S64x128_S10000x128_1_0_0_1_n_n.rhsIdx (ix2 r h) ((ValueIdx.contrEquiv1 dot_S10000x64_S64x128_S10000x128_1_0_0_1_n_n 64 rfl rfl).symm k) = ix2 k h := funext fun a => Fin.ext (by
    match a with
    | ⟨0, _⟩ => exact (rhs_mm1_0 _ _).trans hk
    | ⟨1, _⟩ => exact rhs_mm1_1 _ _)
  rw [el, er]

/-! ## The second product: [10000, 128] · [128, 64] -/

theorem lhs_mm2_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_mm2_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_mm2_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_mm2_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (r, d) of the second product into a zero accumulator: row r of the left operand against column d of the right. -/
theorem mm2_apply {φ₁ φ₂ : FTy} (l : FVec Ideal S10000x128 φ₁) (rr : FVec Ideal S128x64 φ₂) (r : Fin 10000) (d : Fin 64) :
    matmul dot_S10000x128_S128x64_S10000x64_1_0_0_1_n_n none l rr (constant S10000x64 .f32 0x00000000#32) (ix2 r d)
      = ∑ h : Fin 128, l (ix2 r h) * rr (ix2 h d) := by
  show FloatOps.matmul dot_S10000x128_S128x64_S10000x64_1_0_0_1_n_n none l rr (constant S10000x64 .f32 0x00000000#32) (ix2 r d) = _
  rw [Ideal.matmul_constant_zero_apply, ← Equiv.sum_comp (ValueIdx.contrEquiv1 dot_S10000x128_S128x64_S10000x64_1_0_0_1_n_n 128 rfl rfl).symm]
  refine Finset.sum_congr rfl fun h _ => ?_
  have hk := ValueIdx.contrEquiv1_symm_val dot_S10000x128_S128x64_S10000x64_1_0_0_1_n_n 128 rfl rfl h
  have el : dot_S10000x128_S128x64_S10000x64_1_0_0_1_n_n.lhsIdx (ix2 r d) ((ValueIdx.contrEquiv1 dot_S10000x128_S128x64_S10000x64_1_0_0_1_n_n 128 rfl rfl).symm h) = ix2 r h := funext fun a => Fin.ext (by
    match a with
    | ⟨0, _⟩ => exact lhs_mm2_0 _ _
    | ⟨1, _⟩ => exact (lhs_mm2_1 _ _).trans hk)
  have er : dot_S10000x128_S128x64_S10000x64_1_0_0_1_n_n.rhsIdx (ix2 r d) ((ValueIdx.contrEquiv1 dot_S10000x128_S128x64_S10000x64_1_0_0_1_n_n 128 rfl rfl).symm h) = ix2 h d := funext fun a => Fin.ext (by
    match a with
    | ⟨0, _⟩ => exact (rhs_mm2_0 _ _).trans hk
    | ⟨1, _⟩ => exact rhs_mm2_1 _ _)
  rw [el, er]

/-! ## The stored value -/

/-- The hidden layer at (r, h), for any operand vectors `l`, `w`, one-row bias `p` and floor `z`:
    `max (Σ_k l[r, k] · w[k, h] + p[0, h]) z`. -/
theorem hidden_apply {φ₁ φ₂ : FTy} (l : FVec Ideal S10000x64 φ₁) (w : FVec Ideal S64x128 φ₂) (p : FVec Ideal S1x128 .f32)
    (z : Ideal .f32) (r : Fin 10000) (h : Fin 128) :
    (maximumf (addf (matmul dot_S10000x64_S64x128_S10000x128_1_0_0_1_n_n none l w (constant S10000x128 .f32 0x00000000#32))
        (broadcastTo S10000x128 p broadcasts_S1x128_S10000x128))
      (broadcast S10000x128 z) : FVec Ideal S10000x128 .f32) (ix2 r h)
      = max ((∑ k : Fin 64, l (ix2 r k) * w (ix2 k h)) + p (ix2 (0 : Fin 1) h)) z := by
  rw [maximumf_apply, addf_apply, mm1_apply, broadcastTo_1b_ab_apply]
  rfl

/-- THE STORED VALUE at (r, d) is the specification's entry of row r of the message block, the embedding block's
    entry, and the loaded weights and biases. -/
theorem pay_apply (v0 : Vec Ideal S10000x64 .f32) (v3 : Vec Ideal S64x128 .f32) (v7 : Vec Ideal S1x128 .f32)
    (v14 : Vec Ideal S128x64 .f32) (v18 : Vec Ideal S1x64 .f32) (v24 : Vec Ideal S10000x64 .f32) (r : Fin 10000) (d : Fin 64) :
    k0_pay1 (F := Ideal) v0 v3 v7 v14 v18 v24 (ix2 r d)
      = Cert.GraphMlp.entry (fun k => v0 (ix2 r k)) (v24 (ix2 r d)) (fun k h => v3 (ix2 k h)) (fun h => v7 (ix2 (0 : Fin 1) h))
          (fun h => v14 (ix2 h d)) (v18 (ix2 (0 : Fin 1) d)) := by
  unfold k0_pay1 Cert.GraphMlp.entry
  dsimp only
  simp only [shapeCast_self]
  rw [addf_apply, maximumf_apply, addf_apply, mm2_apply, broadcastTo_1b_ab_apply]
  simp only [truncf_apply, hidden_apply]
  rfl

end Cert.KernelIdeal.Pay

end
-- ==== Proof.HostArrays.lean ====
/-
  What the kernel's operand arrays hold when the tiled call is entered.

  Before the call the program computes, with host operations, the aggregated messages — each edge's source and
  destination ids taken from the two rows of the edge list, a negative id wrapped by adding the node count, the
  source rows of the embedding gathered and scatter-added into a zero array at the destination rows — and re-lays the
  parameters: each weight matrix transposed, each bias reshaped to one row. The lemmas below read those five arrays off
  the program's host prefix as terms of the argument arrays; the embedding argument itself is handed over as launched.
-/
import proofs.«126179_j87832081203928_1_alg».proof.Proof.Gen.KernelIdeal.Frame
import Idealize.ShloMosaic.Lib.StableHlo.Run

noncomputable section

namespace Cert.KernelIdeal.HostArrays

open Cert.KernelIdeal Cert.KernelIdeal.Gen Idealize.ShloMosaic Idealize.ShloMosaic.TcCoe Idealize.SL.Sem Idealize.ShloMosaic.StableHlo

variable {F : FTy → Type} [FloatOps F]

/-! ## The aggregated messages as a term of the edge list and the embeddings -/

/-- The edges' source ids: row 0 of the edge list. -/
def srcIds (x0 : (⟨S2x1250000, .i32⟩ : BufTy).Contents (Elt F)) : (⟨S1250000, .i32⟩ : BufTy).Contents (Elt F) :=
  shapeCast _ (extractStridedSlice S1x1250000 ![0, 0] x0 slices_S2x1250000_S1x1250000_0_0) shapeCasts_S1x1250000_S1250000

/-- The edges' destination ids: row 1 of the edge list. -/
def dstIds (x0 : (⟨S2x1250000, .i32⟩ : BufTy).Contents (Elt F)) : (⟨S1250000, .i32⟩ : BufTy).Contents (Elt F) :=
  shapeCast _ (extractStridedSlice S1x1250000 ![1, 0] x0 slices_S2x1250000_S1x1250000_1_0) shapeCasts_S1x1250000_S1250000

/-- Ids as a column of row indices, a negative id wrapped by adding the node count. -/
def wrapped (v : (⟨S1250000, .i32⟩ : BufTy).Contents (Elt F)) : (⟨S1250000x1, .i32⟩ : BufTy).Contents (Elt F) :=
  broadcastInDim S1250000x1 ![0] bcast_S1250000_S1250000x1_0
    (select (cmpi .slt v (broadcastInDim S1250000 ![] bcast_S_S1250000 (constantI S_ 32 0#32)))
      (addi v (broadcastInDim S1250000 ![] bcast_S_S1250000 (constantI S_ 32 1000000#32))) v)

/-- The aggregated messages: the embedding rows gathered at the source ids, scatter-added into zeros at the
    destination ids. -/
def messages (x0 : (⟨S2x1250000, .i32⟩ : BufTy).Contents (Elt F)) (x1 : (⟨S1000000x64, .f32⟩ : BufTy).Contents (Elt F)) :
    (⟨S1000000x64, .f32⟩ : BufTy).Contents (Elt F) :=
  Host.scatterAdd scatter_S1000000x64_S1250000x1_S1250000x64_1_0_0_1
    (broadcastInDim S1000000x64 ![] bcast_S_S1000000x64 (constant S_ .f32 0x00000000#32))
    (wrapped (F := F) (dstIds (F := F) x0))
    (Host.gather gather_S1000000x64_S1250000x1_S1250000x64_1_0_n_n_0_1_164 x1 (wrapped (F := F) (srcIds (F := F) x0)))

variable (m : (ℓ : Loc nD τ sig) → Buf (Elt F) ℓ)

/-! ## The operand arrays at the call -/

set_option maxRecDepth 8192 in
set_option maxHeartbeats 2000000 in
/-- The message operand holds the aggregated messages of the edge list and the embeddings as launched. -/
theorem V_messages (c : Dev nD) :
    V m c main_v18 = messages (F := F) (m ((c : Thread nD τ).loc main_arg0)) (m ((c : Thread nD τ).loc main_arg1)) := by
  unfold V messages wrapped srcIds dstIds
  after_results_simp <;> rfl

/-- The first layer's operand is the first weight matrix transposed. -/
theorem V_wt1 (c : Dev nD) :
    V m c main_v19 = transpose S64x128 [1, 0] (m ((c : Thread nD τ).loc main_arg2)) transposes_S128x64_S64x128_1_0 := by
  unfold V; after_results <;> rfl

/-- The second layer's operand is the second weight matrix transposed. -/
theorem V_wt2 (c : Dev nD) :
    V m c main_v20 = transpose S128x64 [1, 0] (m ((c : Thread nD τ).loc main_arg4)) transposes_S64x128_S128x64_1_0 := by
  unfold V; after_results <;> rfl

/-- The first bias operand is the first bias as one row. -/
theorem V_b1 (c : Dev nD) :
    V m c main_v21 = shapeCast _ (m ((c : Thread nD τ).loc main_arg3)) shapeCasts_S128_S1x128 := by
  unfold V; after_results <;> rfl

/-- The second bias operand is the second bias as one row. -/
theorem V_b2 (c : Dev nD) :
    V m c main_v22 = shapeCast _ (m ((c : Thread nD τ).loc main_arg5)) shapeCasts_S64_S1x64 := by
  unfold V; after_results <;> rfl

end Cert.KernelIdeal.HostArrays

end
-- ==== Proof.Layout.lean ====
/-
  The kernel's operand arrays against the arrays as given.

  A tiled kernel is handed the first layer's matrix transposed to [64, 128], the second's transposed to [128, 64],
  and each bias reshaped to a one-row matrix. Read at an index, a transposed matrix at (k, h) is the matrix at (h, k)
  and a one-row reshape at (0, h) is the vector at h, so the specification over those operand arrays (`G'`) is the
  specification over the arrays as given (`G`).
-/
import proofs.«126179_j87832081203928_1_alg».proof.Proof.Spec
import Idealize.ShloMosaic.Lib.ValueLayout

noncomputable section

namespace Cert.GraphMlp

open Idealize.ShloMosaic Idealize.ShloMosaic.ValueIdx

/-- `G'` over the transposed weights and the one-row biases is `G` over the weights and biases themselves. -/
theorem G'_transposed (msg emb : (⟨2, ![1000000, 64]⟩ : Shape).Idx → EReal) (w1 : (⟨2, ![128, 64]⟩ : Shape).Idx → EReal)
    (b1 : (⟨1, ![128]⟩ : Shape).Idx → EReal) (w2 : (⟨2, ![64, 128]⟩ : Shape).Idx → EReal)
    (b2 : (⟨1, ![64]⟩ : Shape).Idx → EReal)
    (h1 : (⟨2, ![128, 64]⟩ : Shape).Transposes [1, 0] ⟨2, ![64, 128]⟩)
    (hb1 : (⟨1, ![128]⟩ : Shape).ShapeCasts ⟨2, ![1, 128]⟩)
    (h2 : (⟨2, ![64, 128]⟩ : Shape).Transposes [1, 0] ⟨2, ![128, 64]⟩)
    (hb2 : (⟨1, ![64]⟩ : Shape).ShapeCasts ⟨2, ![1, 64]⟩) :
    G' msg emb (transpose ⟨2, ![64, 128]⟩ [1, 0] w1 h1) (shapeCast ⟨2, ![1, 128]⟩ b1 hb1)
        (transpose ⟨2, ![128, 64]⟩ [1, 0] w2 h2) (shapeCast ⟨2, ![1, 64]⟩ b2 hb2)
      = G msg emb w1 b1 w2 b2 := by
  funext i
  obtain ⟨n, d, rfl⟩ : ∃ (n : Fin 1000000) (d : Fin 64), i = ix2 n d := ⟨i 0, i 1, eq_ix2 i⟩
  have e1 : ∀ (k : Fin 64) (h : Fin 128), transpose ⟨2, ![64, 128]⟩ [1, 0] w1 h1 (ix2 k h) = w1 (ix2 h k) :=
    fun k h => transpose_ix2_apply w1 h1 k h
  have e2 : ∀ h : Fin 128, transpose ⟨2, ![128, 64]⟩ [1, 0] w2 h2 (ix2 h d) = w2 (ix2 d h) :=
    fun h => transpose_ix2_apply w2 h2 h d
  have e3 : ∀ h : Fin 128, shapeCast ⟨2, ![1, 128]⟩ b1 hb1 (ix2 (0 : Fin 1) h) = b1 (ix1 h) :=
    fun h => shapeCast_a_1a_apply b1 hb1 0 h
  have e4 : shapeCast ⟨2, ![1, 64]⟩ b2 hb2 (ix2 (0 : Fin 1) d) = b2 (ix1 d) := shapeCast_a_1a_apply b2 hb2 0 d
  show entry (fun k => msg (ix2 n k)) (emb (ix2 n d)) (fun k h => transpose ⟨2, ![64, 128]⟩ [1, 0] w1 h1 (ix2 k h))
      (fun h => shapeCast ⟨2, ![1, 128]⟩ b1 hb1 (ix2 (0 : Fin 1) h)) (fun h => transpose ⟨2, ![128, 64]⟩ [1, 0] w2 h2 (ix2 h d))
      (shapeCast ⟨2, ![1, 64]⟩ b2 hb2 (ix2 (0 : Fin 1) d))
    = entry (fun k => msg (ix2 n k)) (emb (ix2 n d)) (fun k h => w1 (ix2 h k)) (fun h => b1 (ix1 h))
      (fun h => w2 (ix2 d h)) (b2 (ix1 d))
  simp only [e1, e2, e3, e4]

end Cert.GraphMlp

end
-- ==== Proof.Blocks.lean ====
/-
  From the blocks the tiled call writes back to the whole result array.

  The call runs over 100 grid points. At point t the message operand and the embedding operand are staged as their
  t-th blocks of 10000 rows, the two transposed weight matrices and the two one-row biases are staged whole, and the
  result's t-th block of 10000 rows is written back. The body's stored value at local row r is the specification's
  entry of that row (Payload.lean), and local row r of block t is global row t · 10000 + r, so what point t writes
  back is block t of the specification `G'` of the operand arrays (`flushed_eq`). Every row n lies in block
  n / 10000 (`cover`), so the array ends holding `G'` everywhere (`final`); with the operand arrays read off the host
  prefix (HostArrays.lean) and the transposes and reshapes undone (Layout.lean) that is `G` of the aggregated messages
  and the arrays as launched (`final_G`), which `run` posts for the program's run.
-/
import proofs.«126179_j87832081203928_1_alg».proof.Proof.Gen.KernelIdeal.Value
import proofs.«126179_j87832081203928_1_alg».proof.Proof.Payload
import proofs.«126179_j87832081203928_1_alg».proof.Proof.HostArrays
import proofs.«126179_j87832081203928_1_alg».proof.Proof.Layout

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where each window's block sits -/

theorem hz : (![0, 0] : Fin 2 → Nat) = fun _ => 0 := funext fun a => by fin_cases a <;> rfl

/-- The printed index maps, decided over the grid: the message, embedding and result windows are at block row t,
    the four parameter windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 100 := by
  have h := t.isLt
  have e : cfg0.N = 100 := N_0
  omega

/-- Local row r of block t is global row t · 10000 + r. -/
def row (t : Fin cfg0.N) (r : Fin 10000) : Fin 1000000 :=
  ⟨t.val * 10000 + r.val, by have := point_lt t; have := r.isLt; omega⟩

/-- The result block's index (r, d) is the array's index (t · 10000 + r, d). -/
theorem emb_out (t : Fin cfg0.N) (r : Fin 10000) (d : Fin 64) :
    ((cfg0.win 6).blk t).view.emb (ix2 r d) = ix2 (row t r) d := by
  obtain ⟨-, -, -, -, -, -, -, -, -, -, -, -, e60, e61⟩ := idx_facts t
  funext a; apply Fin.ext
  match a with
  | ⟨0, _⟩ => show win0_6.index t (0 : Fin 2) * 10000 + 1 * r.val = t.val * 10000 + r.val; rw [e60]; omega
  | ⟨1, _⟩ => show win0_6.index t (1 : Fin 2) * 64 + 1 * d.val = d.val; rw [e61]; omega

/-- The message block's index (r, k) is the array's index (t · 10000 + r, k). -/
theorem emb_msg (t : Fin cfg0.N) (r : Fin 10000) (k : Fin 64) :
    ((cfg0.win 0).blk t).view.emb (ix2 r k) = ix2 (row t r) k := by
  obtain ⟨e00, e01, -⟩ := idx_facts t
  funext a; apply Fin.ext
  match a with
  | ⟨0, _⟩ => show win0_0.index t (0 : Fin 2) * 10000 + 1 * r.val = t.val * 10000 + r.val; rw [e00]; omega
  | ⟨1, _⟩ => show win0_0.index t (1 : Fin 2) * 64 + 1 * k.val = k.val; rw [e01]; omega

/-- The embedding block's index (r, d) is the array's index (t · 10000 + r, d). -/
theorem emb_emb (t : Fin cfg0.N) (r : Fin 10000) (d : Fin 64) :
    ((cfg0.win 1).blk t).view.emb (ix2 r d) = ix2 (row t r) d := by
  obtain ⟨-, -, e10, e11, -⟩ := idx_facts t
  funext a; apply Fin.ext
  match a with
  | ⟨0, _⟩ => show win0_1.index t (0 : Fin 2) * 10000 + 1 * r.val = t.val * 10000 + r.val; rw [e10]; omega
  | ⟨1, _⟩ => show win0_1.index t (1 : Fin 2) * 64 + 1 * d.val = d.val; rw [e11]; omega

/-- The four parameter windows are staged whole: a block index is the array index. -/
theorem emb_wt1 (t : Fin cfg0.N) (k : Fin 64) (h : Fin 128) : ((cfg0.win 2).blk t).view.emb (ix2 k h) = ix2 k h := by
  obtain ⟨-, -, -, -, e20, e21, -⟩ := idx_facts t
  funext a; apply Fin.ext
  match a with
  | ⟨0, _⟩ => show win0_2.index t (0 : Fin 2) * 64 + 1 * k.val = k.val; rw [e20]; omega
  | ⟨1, _⟩ => show win0_2.index t (1 : Fin 2) * 128 + 1 * h.val = h.val; rw [e21]; omega
theorem emb_b1 (t : Fin cfg0.N) (u : Fin 1) (h : Fin 128) : ((cfg0.win 3).blk t).view.emb (ix2 u h) = ix2 u h := by
  obtain ⟨-, -, -, -, -, -, e30, e31, -⟩ := idx_facts t
  funext a; apply Fin.ext
  match a with
  | ⟨0, _⟩ => show win0_3.index t (0 : Fin 2) * 1 + 1 * u.val = u.val; rw [e30]; omega
  | ⟨1, _⟩ => show win0_3.index t (1 : Fin 2) * 128 + 1 * h.val = h.val; rw [e31]; omega
theorem emb_wt2 (t : Fin cfg0.N) (h : Fin 128) (d : Fin 64) : ((cfg0.win 4).blk t).view.emb (ix2 h d) = ix2 h d := by
  obtain ⟨-, -, -, -, -, -, -, -, e40, e41, -⟩ := idx_facts t
  funext a; apply Fin.ext
  match a with
  | ⟨0, _⟩ => show win0_4.index t (0 : Fin 2) * 128 + 1 * h.val = h.val; rw [e40]; omega
  | ⟨1, _⟩ => show win0_4.index t (1 : Fin 2) * 64 + 1 * d.val = d.val; rw [e41]; omega
theorem emb_b2 (t : Fin cfg0.N) (u : Fin 1) (d : Fin 64) : ((cfg0.win 5).blk t).view.emb (ix2 u d) = ix2 u d := by
  obtain ⟨-, -, -, -, -, -, -, -, -, -, e50, e51, -⟩ := idx_facts t
  funext a; apply Fin.ext
  match a with
  | ⟨0, _⟩ => show win0_5.index t (0 : Fin 2) * 1 + 1 * u.val = u.val; rw [e50]; omega
  | ⟨1, _⟩ => show win0_5.index t (1 : Fin 2) * 64 + 1 * d.val = d.val; rw [e51]; omega

/-! ## One point, over any operand arrays -/

/-- The specification's entry depends only on its six arguments. -/
theorem entry_congr {x x' : Fin 64 → EReal} {e e' : EReal} {a a' : Fin 64 → Fin 128 → EReal} {p p' : Fin 128 → EReal}
    {b b' : Fin 128 → EReal} {q q' : EReal} (hx : x = x') (he : e = e') (ha : a = a') (hp : p = p') (hb : b = b') (hq : q = q') :
    Cert.GraphMlp.entry x e a p b q = Cert.GraphMlp.entry x' e' a' p' b' q' := by
  subst hx he ha hp hb hq; rfl

/-- AT ONE POINT, for ANY operand arrays: the body's stored value of the arrays' blocks at point t, at local index
    (r, d), is `G'` of the arrays at the result block's index there — each block read where the entry reads it is its
    array at the matching global index. -/
theorem point_eq (X0 X1 : S1000000x64.Idx → EReal) (X2 : S64x128.Idx → EReal) (X3 : S1x128.Idx → EReal)
    (X4 : S128x64.Idx → EReal) (X5 : S1x64.Idx → EReal) (t : Fin cfg0.N) (r : Fin 10000) (d : Fin 64) :
    k0_pay1 (F := Ideal) (((cfg0.win 0).blk t).view.read (Elt Ideal) X0) (((cfg0.win 2).blk t).view.read (Elt Ideal) X2)
        (((cfg0.win 3).blk t).view.read (Elt Ideal) X3) (((cfg0.win 4).blk t).view.read (Elt Ideal) X4)
        (((cfg0.win 5).blk t).view.read (Elt Ideal) X5) (((cfg0.win 1).blk t).view.read (Elt Ideal) X1) (ix2 r d)
      = Cert.GraphMlp.G' X0 X1 X2 X3 X4 X5 (((cfg0.win 6).blk t).view.emb (ix2 r d)) := by
  refine (Pay.pay_apply (((cfg0.win 0).blk t).view.read (Elt Ideal) X0) (((cfg0.win 2).blk t).view.read (Elt Ideal) X2)
        (((cfg0.win 3).blk t).view.read (Elt Ideal) X3) (((cfg0.win 4).blk t).view.read (Elt Ideal) X4)
        (((cfg0.win 5).blk t).view.read (Elt Ideal) X5) (((cfg0.win 1).blk t).view.read (Elt Ideal) X1) r d).trans ?_
  rw [emb_out]
  show _ = Cert.GraphMlp.entry (fun k => X0 (ix2 (row t r) k)) (X1 (ix2 (row t r) d)) (fun k h => X2 (ix2 k h))
      (fun h => X3 (ix2 (0 : Fin 1) h)) (fun h => X4 (ix2 h d)) (X5 (ix2 (0 : Fin 1) d))
  exact entry_congr (funext fun k => congrArg X0 (emb_msg t r k)) (congrArg X1 (emb_emb t r d))
    (funext fun k => funext fun h => congrArg X2 (emb_wt1 t k h)) (funext fun h => congrArg X3 (emb_b1 t 0 h))
    (funext fun h => congrArg X4 (emb_wt2 t h d)) (congrArg X5 (emb_b2 t 0 d))

/-! ## What point t writes back -/

/-- WHAT POINT t WRITES BACK is block t of `G'` of the operand arrays as the call finds them. -/
theorem flushed_eq (c : Dev nD) (t : Fin cfg0.N) :
    (dats m 0 c).flushed 6 t = ((cfg0.win 6).blk t).view.read (Elt Ideal)
      (Cert.GraphMlp.G' (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [flushed6]
  unfold out0_6 iblk
  rw [View.canon_unit_zero hz]
  simp only [View.ld_unit_zero (S := S10000x64) hz, View.ld_unit_zero (S := S64x128) hz, View.ld_unit_zero (S := S1x128) hz,
    View.ld_unit_zero (S := S128x64) hz, View.ld_unit_zero (S := S1x64) hz]
  funext j
  obtain ⟨r, d, rfl⟩ : ∃ (r : Fin 10000) (d : Fin 64), j = ix2 r d := ⟨j 0, j 1, eq_ix2 j⟩
  exact point_eq (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t r d

/-! ## The blocks cover the array -/

/-- An index of the result array is in point t's block iff each coordinate is in the block's range on its axis. -/
theorem mem_blk (t : Fin cfg0.N) (i : S1000000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v23).slice (win0_6.rect t)).set ↔ _
  rw [View.set_slice_whole, Rect.mem_set_unit]
  exact Iff.rfl

/-- Row n of the result is in the block of point n / 10000, which writes back. -/
theorem cover (i : S1000000x64.Idx) :
    ∃ t : Fin cfg0.N, (cfg0.win 6).flush t = true ∧ i ∈ ((cfg0.win 6).blk t).view.set := by
  have hi0 : (i 0).val < 1000000 := (i 0).isLt
  have hi1 : (i 1).val < 64 := (i 1).isLt
  have hN : cfg0.N = 100 := N_0
  have ht : (i 0).val / 10000 < cfg0.N := by omega
  refine ⟨⟨(i 0).val / 10000, ht⟩, flush0_6 _, ?_⟩
  obtain ⟨-, -, -, -, -, -, -, -, -, -, -, -, e60, e61⟩ := idx_facts ⟨(i 0).val / 10000, ht⟩
  rw [mem_blk]
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    rw [e60]
    show (i 0).val / 10000 * 10000 ≤ (i 0).val ∧ (i 0).val < (i 0).val / 10000 * 10000 + 10000
    omega
  | ⟨1, _⟩ =>
    show win0_6.index ⟨(i 0).val / 10000, ht⟩ (1 : Fin 2) * 64 ≤ (i 1).val ∧ (i 1).val < win0_6.index ⟨(i 0).val / 10000, ht⟩ (1 : Fin 2) * 64 + 64
    rw [e61]
    omega

/-! ## The array after the run -/

/-- THE RESULT ARRAY after the run is `G'` of the operand arrays as the call finds them. -/
theorem final (c : Dev nD) :
    (dats m 0 c).arrAt 6 cfg0.N
      = Cert.GraphMlp.G' (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 6 _ (fun t _ => flushed_eq m c t) cover

/-- In terms of the launch memory: `G` of the aggregated messages and the five float arguments. The six operand
    arrays are the message term, the embeddings as launched, the transposed weights and the one-row biases
    (HostArrays.lean); the transposes and reshapes read back at an index give `G` (Layout.lean). -/
theorem final_G (c : Dev nD) :
    (dats m 0 c).arrAt 6 cfg0.N
      = Cert.GraphMlp.G (HostArrays.messages (F := Ideal) (m ((c : Thread nD τ).loc main_arg0)) (m ((c : Thread nD τ).loc main_arg1)))
          (m ((c : Thread nD τ).loc main_arg1)) (m ((c : Thread nD τ).loc main_arg2)) (m ((c : Thread nD τ).loc main_arg3))
          (m ((c : Thread nD τ).loc main_arg4)) (m ((c : Thread nD τ).loc main_arg5)) := by
  rw [final]
  have a0 : V m c (Pipeline.arrRef spec0 0)
      = HostArrays.messages (F := Ideal) (m ((c : Thread nD τ).loc main_arg0)) (m ((c : Thread nD τ).loc main_arg1)) :=
    HostArrays.V_messages m c
  have a1 : V m c (Pipeline.arrRef spec0 1) = m ((c : Thread nD τ).loc main_arg1) := V_main_arg1 m c
  have a2 : V m c (Pipeline.arrRef spec0 2)
      = transpose S64x128 [1, 0] (m ((c : Thread nD τ).loc main_arg2)) transposes_S128x64_S64x128_1_0 := HostArrays.V_wt1 m c
  have a3 : V m c (Pipeline.arrRef spec0 3) = shapeCast _ (m ((c : Thread nD τ).loc main_arg3)) shapeCasts_S128_S1x128 :=
    HostArrays.V_b1 m c
  have a4 : V m c (Pipeline.arrRef spec0 4)
      = transpose S128x64 [1, 0] (m ((c : Thread nD τ).loc main_arg4)) transposes_S64x128_S128x64_1_0 := HostArrays.V_wt2 m c
  have a5 : V m c (Pipeline.arrRef spec0 5) = shapeCast _ (m ((c : Thread nD τ).loc main_arg5)) shapeCasts_S64_S1x64 :=
    HostArrays.V_b2 m c
  rw [a0, a1, a2, a3, a4, a5]
  exact Cert.GraphMlp.G'_transposed _ _ _ _ _ _ _ _ _ _

/-! ## The run, read -/

/-- The program's run with the result array at `G` of the launch memory, the arguments unchanged. -/
theorem run : θ_run defs (onTc (τ := τ) (main (F := Ideal))) ⟨m, fun _ => 0, ρ⟩ fun r => ∀ c : Dev nD,
      r.2.mem ((c : Thread nD τ).loc main_v23)
        = Cert.GraphMlp.G (HostArrays.messages (F := Ideal) (m ((c : Thread nD τ).loc main_arg0)) (m ((c : Thread nD τ).loc main_arg1)))
          (m ((c : Thread nD τ).loc main_arg1)) (m ((c : Thread nD τ).loc main_arg2)) (m ((c : Thread nD τ).loc main_arg3))
          (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_G m c), (h c).2⟩) (run_blocks m ρ)

end Cert.KernelIdeal.Blocks

end
-- ==== Proof.RefSide.lean ====
/-
  The reference's result, read at an index, is the specification.

  The reference computes, on the whole arrays, `emb + max (max (msg · w1ᵀ + b1) 0 · w2ᵀ + b2) 0`, where `msg` is the
  scatter-add of the gathered embedding rows, each `·` a host matrix product contracting the left operand's axis 1
  with the right operand's axis 0, each transpose a host transpose and each bias broadcast along the rows. Read at
  (n, d) through the generated one-operation-at-a-time lemmas this is the specification's `entry` of row n of
  `msg`, with first-layer weight w1[h, k], bias b1[h], second-layer weight w2[d, h] and bias b2[d]: the function `G`.
  Only the index bookkeeping is proved here, in two layers: the hidden layer at (n, h), then the output at (n, d)
  over it. Each composed index function of the generated lemmas is the plain pair of coordinates it denotes.
-/
import proofs.«126179_j87832081203928_1_alg».proof.Proof.Gen.ReferenceIdeal.Read
import proofs.«126179_j87832081203928_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable (x0 : (⟨S2x1250000, .i32⟩ : BufTy).Contents (Elt Ideal)) (x1 : (⟨S1000000x64, .f32⟩ : BufTy).Contents (Elt Ideal))
  (x2 : (⟨S128x64, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))

/-- The hidden layer at (n, h): `max (Σ_k msg[n, k] · w1[h, k] + b1[h]) 0` — the first product's left operand at
    contraction index k is message entry (n, k), its right operand is w1 transposed, and the bias broadcast to a row
    and then down the rows reads b1[h]. -/
theorem hidden_apply (n : Fin 1000000) (h : Fin 128) :
    val_main_v24 (F := Ideal) x0 x1 x2 x3 (ix2 n h)
      = max ((∑ k : Fin 64, val_main_v18 (F := Ideal) x0 x1 (ix2 n k) * x2 (ix2 h k)) + x3 (ix1 h))
          (Ideal.ofBits .f32 0x00000000#32) := by
  rw [val_main_v24_apply, val_main_v23_apply, val_main_v20_apply, val_main_v22_apply, val_main_v21_apply,
    val_main_call0_v0_apply, val_main_call0_cst_apply]
  have e1 : ∀ k : Fin 64, lidx_main_v20 (ix2 n h) k = ix2 n k := fun k =>
    funext fun a => Fin.ext (by match a with | ⟨0, _⟩ => rfl | ⟨1, _⟩ => rfl)
  have e2 : ∀ k : Fin 64, val_main_v19 (F := Ideal) x2 (ridx_main_v20 (ix2 n h) k) = x2 (ix2 h k) := fun k => by
    rw [val_main_v19_apply]
    exact congrArg x2 (funext fun a => Fin.ext (by match a with | ⟨0, _⟩ => rfl | ⟨1, _⟩ => rfl))
  have e3 : idx_main_v21 (idx_main_v22 (ix2 n h)) = ix1 h :=
    funext fun a => Fin.ext (by match a with | ⟨0, _⟩ => rfl)
  rw [e3]
  refine congrArg (fun s : EReal => max (s + x3 (ix1 h)) (Ideal.ofBits .f32 0x00000000#32)) (Finset.sum_congr rfl fun k _ => ?_)
  rw [e1 k, e2 k]

/-- The output at (n, d) over the hidden layer: the second product's left operand at contraction index h is the
    hidden layer at (n, h), its right operand is w2 transposed, the bias reads b2[d], and the embedding entry is
    added in front. -/
theorem out_apply (n : Fin 1000000) (d : Fin 64) :
    val_main_v31 (F := Ideal) x0 x1 x2 x3 x4 x5 (ix2 n d)
      = Cert.GraphMlp.entry (fun k => val_main_v18 (F := Ideal) x0 x1 (ix2 n k)) (x1 (ix2 n d)) (fun k h => x2 (ix2 h k))
          (fun h => x3 (ix1 h)) (fun h => x4 (ix2 d h)) (x5 (ix1 d)) := by
  rw [val_main_v31_apply, val_main_v30_apply, val_main_v29_apply, val_main_v26_apply, val_main_v28_apply,
    val_main_v27_apply, val_main_call1_v0_apply, val_main_call1_cst_apply]
  have f1 : ∀ h : Fin 128, lidx_main_v26 (ix2 n d) h = ix2 n h := fun h =>
    funext fun a => Fin.ext (by match a with | ⟨0, _⟩ => rfl | ⟨1, _⟩ => rfl)
  have f2 : ∀ h : Fin 128, val_main_v25 (F := Ideal) x4 (ridx_main_v26 (ix2 n d) h) = x4 (ix2 d h) := fun h => by
    rw [val_main_v25_apply]
    exact congrArg x4 (funext fun a => Fin.ext (by match a with | ⟨0, _⟩ => rfl | ⟨1, _⟩ => rfl))
  have f3 : idx_main_v27 (idx_main_v28 (ix2 n d)) = ix1 d :=
    funext fun a => Fin.ext (by match a with | ⟨0, _⟩ => rfl)
  rw [f3]
  unfold Cert.GraphMlp.entry
  refine congrArg (fun s : EReal => x1 (ix2 n d) + max (s + x5 (ix1 d)) (Ideal.ofBits .f32 0x00000000#32))
    (Finset.sum_congr rfl fun h _ => ?_)
  rw [f1 h, f2 h, hidden_apply]

/-- The reference's last stage is `G` of the message stage and the five float arrays. -/
theorem result_eq :
    val_main_v31 (F := Ideal) x0 x1 x2 x3 x4 x5
      = Cert.GraphMlp.G (val_main_v18 (F := Ideal) x0 x1) x1 x2 x3 x4 x5 := by
  funext i
  obtain ⟨n, d, rfl⟩ : ∃ (n : Fin 1000000) (d : Fin 64), i = ix2 n d := ⟨i 0, i 1, eq_ix2 i⟩
  exact out_apply x0 x1 x2 x3 x4 x5 n d

end Cert.ReferenceIdeal.RefValue

end
-- ==== Proof.lean ====
/-
  The certificate of a graph layer: per-edge message aggregation followed by a two-layer perceptron with residual.

  Both programs aggregate messages the same way, with the same host operations: the embedding rows at the edges'
  source ids are gathered and scatter-added into a zero array at the destination ids. On the aggregated messages
  `msg` and the embeddings `emb` both then compute, row by row,

      out[n, d] = emb[n, d] + max (Σ_h max (Σ_k msg[n, k] · w1[h, k] + b1[h]) 0 · w2[d, h] + b2[d]) 0.

  The reference does it with two whole-array matrix products against the transposed weights. The kernel does it in a
  tiled call over 100 blocks of 10000 rows, its matrix unit's products accumulated into zero and its operands cast to
  bf16 on the way — the identity on the extended reals. Term by term the two sums are the same, so no algebraic law,
  and nothing of the finiteness precondition, is needed: the proof is index bookkeeping.

  Spec.lean states the function (`G`). RefSide.lean reads the reference's run at an index as `G`. Payload.lean reads
  the kernel body's stored value at an index; HostArrays.lean reads the kernel's operand arrays off its host prefix;
  Blocks.lean assembles the blocks written back into the whole array and posts the kernel's run at `G`; Layout.lean
  undoes the transposes and one-row reshapes between the two. The frames are the generated ones; the idealization
  rewrote nothing, so there is nothing to preserve.
-/
import proofs.«126179_j87832081203928_1_alg».proof.Defs
import proofs.«126179_j87832081203928_1_alg».proof.Proof.Gen.Kernel
import proofs.«126179_j87832081203928_1_alg».proof.Proof.Gen.Kernel.Skeleton
import proofs.«126179_j87832081203928_1_alg».proof.Proof.Gen.Kernel.Launch
import proofs.«126179_j87832081203928_1_alg».proof.Proof.Gen.Kernel.Points
import proofs.«126179_j87832081203928_1_alg».proof.Proof.Gen.Kernel.Frame
import proofs.«126179_j87832081203928_1_alg».proof.Proof.Gen.KernelIdeal
import proofs.«126179_j87832081203928_1_alg».proof.Proof.Gen.KernelIdeal.Skeleton
import proofs.«126179_j87832081203928_1_alg».proof.Proof.Gen.KernelIdeal.Launch
import proofs.«126179_j87832081203928_1_alg».proof.Proof.Gen.KernelIdeal.Points
import proofs.«126179_j87832081203928_1_alg».proof.Proof.Gen.KernelIdeal.Frame
import proofs.«126179_j87832081203928_1_alg».proof.Proof.Gen.ReferenceIdeal
import proofs.«126179_j87832081203928_1_alg».proof.Proof.Gen.Pre_finite_inputs
import proofs.«126179_j87832081203928_1_alg».proof.Proof.Gen.KernelIdeal.Value
import proofs.«126179_j87832081203928_1_alg».proof.Proof.Gen.ReferenceIdeal.Run
import proofs.«126179_j87832081203928_1_alg».proof.Proof.Gen.ReferenceIdeal.Read
import proofs.«126179_j87832081203928_1_alg».proof.Proof.Blocks
import proofs.«126179_j87832081203928_1_alg».proof.Proof.RefSide
import Idealize.ShloMosaic.Adequacy
import Idealize.ShloMosaic.Init

noncomputable section

namespace Cert.Proof

open Idealize.ShloMosaic Idealize.ShloMosaic.TcCoe Idealize.SL.Sem

/-- The reference's message stage and the kernel's message term are the same operations of the same arrays. -/
theorem messages_eq [Cert.KernelIdeal.Facts] [Cert.ReferenceIdeal.Facts]
    (x0 : (⟨Cert.KernelIdeal.S2x1250000, .i32⟩ : BufTy).Contents (Elt Ideal))
    (x1 : (⟨Cert.KernelIdeal.S1000000x64, .f32⟩ : BufTy).Contents (Elt Ideal)) :
    Cert.ReferenceIdeal.Read.val_main_v18 (F := Ideal) x0 x1 = Cert.KernelIdeal.HostArrays.messages (F := Ideal) x0 x1 := rfl

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both runs end with the result array at `G` of the aggregated messages and the five float arguments: the kernel's
    by its blocks (Blocks.lean), the reference's by its stages read at an index (RefSide.lean), from memories that
    agree on the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v31_eq, Cert.ReferenceIdeal.RefValue.result_eq, a0, a1, a2, a3, a4, a5, messages_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
